-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x64 .f32) (main_arg5 : FVec F S32x64 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x32 .f32) (main_arg1 : FVec F S64x32 .f32) (main_arg2 : FVec F S64x32 .f32) (main_arg3 : FVec F S64 .f32) (main_arg4 : FVec F S32x64 .f32) (main_arg5 : FVec F S32x64 .f32) (main_arg6 : FVec F S32 .f32) (main_arg7 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x32 : Shape := ⟨2, ![1, 32]⟩

abbrev nBuf : Space → Nat
  | .hbm => 63
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32x64, .f32⟩
  | .hbm, ⟨6, _⟩ => ⟨S32, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S_, .f32⟩
  | .hbm, ⟨35, _⟩ => ⟨S100000x32, .f32⟩
  | .hbm, ⟨36, _⟩ => ⟨S1600000x1, .i32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S32x64, .f32⟩
  | .hbm, ⟨41, _⟩ => ⟨S32x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x32, .f32⟩
  | .hbm, ⟨60, _⟩ => ⟨S64x32, .f32⟩
  | .hbm, ⟨61, _⟩ => ⟨S1x32, .f32⟩
  | .hbm, ⟨62, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S64x32_S32x64_1_0 : S64x32.Transposes [1, 0] S32x64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S64x32, .f32⟩
  | .hbm, ⟨3, _⟩ => ⟨S64, .f32⟩
  | .hbm, ⟨4, _⟩ => ⟨S32x64, .f32⟩
  | .hbm, ⟨5, _⟩ => ⟨S32x64, .f32⟩
  | .hbm, ⟨6, _⟩ => ⟨S32, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S32x64, .f32⟩
  | .hbm, ⟨38, _⟩ => ⟨S100000x64, .f32⟩
  | .hbm, ⟨39, _⟩ => ⟨S32x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x32, .f32⟩
  | .hbm, ⟨74, _⟩ => ⟨S100000x32, .f32⟩
  | .hbm, ⟨75, _⟩ => ⟨S64x32, .f32⟩
  | .hbm, ⟨76, _⟩ => ⟨S100000x32, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibDot.lean ====
/-
  A matrix product read at an entry.

  For dimension numbers that contract the left operand's second axis with the right operand's first and have no batch
  axes — an `[N, K]` by `[K, M]` product — the sum over the contraction index that the ideal instance gives for an
  entry `(p, q)` of the result is the textbook sum `∑ₖ l p k · r k q` over `k : Fin K`. The contraction index set has
  one axis, so it is re-indexed by its one coordinate; the operand indices at `(p, q)` and `k` are then `(p, k)` and
  `(k, q)`, read off the dimension numbers' lists.
-/
import Idealize.ShloMosaic.PureOps.Ideal.Laws
import Idealize.ShloMosaic.Lib.ValueIdx

noncomputable section

open scoped BigOperators

namespace Cert.LibDot

open Idealize.ShloMosaic Idealize.ShloMosaic.ValueIdx

variable {N K M : Nat} (D : DotDims ⟨2, ![N, K]⟩ ⟨2, ![K, M]⟩ ⟨2, ![N, M]⟩)

/-- The contraction index set of such a product has one axis … -/
theorem contr_rank (hlc : D.lhsContracting = [1]) : D.contr.rank = 1 := by
  rw [D.rank_contr, hlc]; rfl

/-- … of extent `K`. -/
theorem contr_size (hlc : D.lhsContracting = [1]) :
    D.contr.size ⟨0, by rw [contr_rank D hlc]; exact Nat.one_pos⟩ = K := by
  rw [D.size_contr 0 (by rw [hlc]; exact Nat.one_pos)]
  have : D.lhsContracting[0]'(by rw [hlc]; exact Nat.one_pos) = (1 : Fin 2) := by simp [hlc]
  rw [this]; rfl

/-- A coordinate of `ix2 p q` at an axis known to be the first. -/
theorem ix2_val_zero {n0 n1 : Nat} (p : Fin n0) (q : Fin n1) (n : Nat) (h : n < 2) (e : n = 0) :
    ((ix2 p q : (⟨2, ![n0, n1]⟩ : Shape).Idx) ⟨n, h⟩).val = p.val := by subst e; rfl

/-- A coordinate of `ix2 p q` at an axis known to be the second. -/
theorem ix2_val_one {n0 n1 : Nat} (p : Fin n0) (q : Fin n1) (n : Nat) (h : n < 2) (e : n = 1) :
    ((ix2 p q : (⟨2, ![n0, n1]⟩ : Shape).Idx) ⟨n, h⟩).val = q.val := by subst e; rfl

/-- The left operand's row at result entry `(p, q)` is `p`. -/
theorem lhs_row (hlb : D.lhsBatch = []) (hln : D.lhsNonContracting = [0]) (p : Fin N) (q : Fin M) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact ix2_val_zero p q _ _ (by simp [hlb, hln])

/-- The right operand's column at result entry `(p, q)` is `q`. -/
theorem rhs_col (hlb : D.lhsBatch = []) (hln : D.lhsNonContracting = [0]) (hrb : D.rhsBatch = []) (hrn : D.rhsNonContracting = [1])
    (p : Fin N) (q : Fin M) (k : D.contr.Idx) :
    (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact ix2_val_one p q _ _ (by simp [hlb, hln, hrn])

/-- THE PRODUCT AT AN ENTRY: the contraction sum is `∑ₖ l (p, k) · r (k, q)`. -/
theorem sum_contr (hlc : D.lhsContracting = [1]) (hrc : D.rhsContracting = [0]) (hlb : D.lhsBatch = [])
    (hln : D.lhsNonContracting = [0]) (hrb : D.rhsBatch = []) (hrn : D.rhsNonContracting = [1])
    (l : (⟨2, ![N, K]⟩ : Shape).Idx → EReal) (r : (⟨2, ![K, M]⟩ : Shape).Idx → EReal) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p q) ((contrEquiv1 D K (contr_rank D hlc) (contr_size D hlc)).symm k) = ix2 p k :=
    funext fun a => Fin.ext (by
      match a with
      | ⟨0, _⟩ => exact lhs_row D hlb hln p q _
      | ⟨1, _⟩ => exact (D.lhsIdx_val_of_single hlc _ _).trans hk)
  have er : D.rhsIdx (ix2 p q) ((contrEquiv1 D K (contr_rank D hlc) (contr_size D hlc)).symm k) = ix2 k q :=
    funext fun a => Fin.ext (by
      match a with
      | ⟨0, _⟩ => exact (D.rhsIdx_val_of_single hrc _ _).trans hk
      | ⟨1, _⟩ => exact rhs_col D hlb hln hrb hrn p q _)
  rw [el, er]

/-- A `tpu.matmul` into the zero accumulator, at an entry. -/
theorem matmul_zero_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact sum_contr D hlc hrc hlb hln hrb hrn l r p q

/-- The host's `dot_general`, at an entry. -/
theorem dotGeneral_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    Host.dotGeneral D prec l r (ix2 p q) = ∑ k : Fin K, l (ix2 p k) * r (ix2 k q) := by
  simp only [Host.dotGeneral]
  rw [Ideal.dotGeneral_apply]
  exact sum_contr D hlc hrc hlb hln hrb hrn l r p q

end Cert.LibDot

end
-- ==== Proof.LibDotFmt.lean ====
/-
  A matrix product into the zero accumulator read at an entry, whatever the operands' float formats.

  The matrix unit multiplies operands of a narrower format and accumulates in single precision; over the extended
  reals the format is no part of the value, and the product of an `[N, K]` by a `[K, M]` operand into the zero
  accumulator is, at entry `(p, q)`, the textbook sum `∑ₖ l p k · r k q`.
-/
import proofs.«132765_j34342558499454_1_alg».proof.Proof.LibDot

noncomputable section

open scoped BigOperators

namespace Cert.LibDot

open Idealize.ShloMosaic Idealize.ShloMosaic.ValueIdx

variable {N K M : Nat} (D : DotDims ⟨2, ![N, K]⟩ ⟨2, ![K, M]⟩ ⟨2, ![N, M]⟩)

/-- A `tpu.matmul` of operands of any two formats into the zero accumulator, at an entry. -/
theorem matmul_zero_apply_fmt {φ₁ φ₂ : FTy} (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ φ₁) (r : FVec Ideal ⟨2, ![K, M]⟩ φ₂) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact sum_contr D hlc hrc hlb hln hrb hrn l r p q

end Cert.LibDot

end
-- ==== Proof.Pay.lean ====
/-
  What each kernel body stores, read at an entry.

  The body of either round loads the block of mean rows, the block of the nodes' own rows, the two weight matrices
  and the bias row, narrows the four matrix operands to bf16 (no change of value over the extended reals), forms the
  two products on the matrix unit into zero accumulators, adds them, adds the bias row broadcast down the block, and
  — in the first round only — takes the maximum with zero. Entry `(p, q)` of what it stores is therefore
  `(∑ₖ mean p k · Wl k q) + (∑ₖ x p k · Wr k q) + b q`, clamped below at zero in the first round.
-/
import proofs.«132765_j34342558499454_1_alg».proof.Proof.Gen.KernelIdeal.Skeleton
import proofs.«132765_j34342558499454_1_alg».proof.Proof.LibDotFmt
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- First round's stored block at `(p, q)`. -/
theorem pay0_apply (x0 x1 : Vec Ideal S5000x32 .f32) (x2 x3 : Vec Ideal S32x64 .f32) (x4 : Vec Ideal S1x64 .f32)
    (p : Fin 5000) (q : Fin 64) :
    k0_pay1 (F := Ideal) x0 x1 x2 x3 x4 (ix2 p q)
      = max (((∑ k : Fin 32, x0 (ix2 p k) * x2 (ix2 k q)) + ∑ k : Fin 32, x1 (ix2 p k) * x3 (ix2 k q))
          + x4 (ix2 (0 : Fin 1) q)) 0 := by
  unfold k0_pay1
  simp only [maximumf_apply, addf_apply, broadcast_apply]
  rw [Cert.LibDot.matmul_zero_apply_fmt dot_S5000x32_S32x64_S5000x64_1_0_0_1_n_n rfl rfl rfl rfl rfl rfl,
    Cert.LibDot.matmul_zero_apply_fmt dot_S5000x32_S32x64_S5000x64_1_0_0_1_n_n rfl rfl rfl rfl rfl rfl]
  simp only [truncf_apply, shapeCast_self]
  rw [broadcastTo_1b_ab_apply]
  simp only [Ideal.ofBits_def, Ideal.ofBits_zero_f32]

/-- Second round's stored block at `(p, q)`. -/
theorem pay1_apply (x0 x1 : Vec Ideal S5000x64 .f32) (x2 x3 : Vec Ideal S64x32 .f32) (x4 : Vec Ideal S1x32 .f32)
    (p : Fin 5000) (q : Fin 32) :
    k1_pay1 (F := Ideal) x0 x1 x2 x3 x4 (ix2 p q)
      = ((∑ k : Fin 64, x0 (ix2 p k) * x2 (ix2 k q)) + ∑ k : Fin 64, x1 (ix2 p k) * x3 (ix2 k q))
          + x4 (ix2 (0 : Fin 1) q) := by
  unfold k1_pay1
  simp only [addf_apply]
  rw [Cert.LibDot.matmul_zero_apply_fmt dot_S5000x64_S64x32_S5000x32_1_0_0_1_n_n rfl rfl rfl rfl rfl rfl,
    Cert.LibDot.matmul_zero_apply_fmt dot_S5000x64_S64x32_S5000x32_1_0_0_1_n_n rfl rfl rfl rfl rfl rfl]
  simp only [truncf_apply, shapeCast_self]
  rw [broadcastTo_1b_ab_apply]

end Cert.KernelIdeal.Pay

end
-- ==== Proof.Spec.lean ====
/-
  The mathematics shared by the two programs: two rounds of mean aggregation over a graph's edges, each followed by
  an affine combine of the aggregated rows with the node's own row.

  Both programs gather the source rows of every edge and add them into the destination rows, and both count the
  edges entering each node. They differ in how they divide: one multiplies the summed rows by the reciprocal
  `1 / max(deg, 1)`, the other divides them by `max(deg, 1)`. On the extended reals a quotient by a NONZERO divisor
  is by definition the product with the divisor's inverse, and `1 / d` is that inverse, so the two agree wherever the
  divisor is not zero; `max(deg, 1)` is at least `1`, whatever `deg` is. No finiteness is needed.

  After the mean, a node's new row is `mean · Wl + x · Wr + b` (then `max(·, 0)` in the first round): entry `(p, q)` is
  the sum over the feature index of the products, twice, plus the bias entry `q`.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The float pattern of `1.0` denotes the real one. -/
theorem ofBits_one : Ideal.ofBits .f32 0x3F800000#32 = 1 := by
  simp [Ideal.ofBits, Ideal.ieee, -EReal.coe_mul]; norm_num

/-- The larger of anything and one is not zero. -/
theorem max_one_ne_zero (d : EReal) : max d 1 ≠ 0 := by
  intro h
  have h1 : (1 : EReal) ≤ max d 1 := le_max_right _ _
  rw [h] at h1
  exact absurd h1 (not_le.mpr (by exact_mod_cast (zero_lt_one : (0 : ℝ) < 1)))

/-- Multiplying by the reciprocal of a nonzero divisor is dividing by it, on every extended real. -/
theorem mul_recip (a d : EReal) (hd : d ≠ 0) : a * Ideal.div 1 d = Ideal.div a d := by
  unfold Ideal.div
  rw [if_neg hd, if_neg hd, one_mul]

/-- The mean's two spellings agree at every entry: the summed row times `1 / max(deg, 1)` is the summed row over
    `max(deg, 1)`. -/
theorem mean_entry (a deg : EReal) : a * Ideal.div 1 (max deg 1) = Ideal.div a (max deg 1) :=
  mul_recip a _ (max_one_ne_zero deg)

/-- First round: `max(mean · Wl + x · Wr + b, 0)`, 32 features in, 64 out, over the 100000 nodes. -/
def layer1 (mean x : (⟨2, ![100000, 32]⟩ : Shape).Idx → EReal) (wl wr : (⟨2, ![32, 64]⟩ : Shape).Idx → EReal)
    (b : (⟨2, ![1, 64]⟩ : Shape).Idx → EReal) : (⟨2, ![100000, 64]⟩ : Shape).Idx → EReal :=
  fun j => max (((∑ k : Fin 32, mean (ix2 (j 0) k) * wl (ix2 k (j 1))) + ∑ k : Fin 32, x (ix2 (j 0) k) * wr (ix2 k (j 1)))
    + b (ix2 (0 : Fin 1) (j 1))) 0

/-- Second round: `mean · Wl + x · Wr + b`, 64 features in, 32 out. -/
def layer2 (mean x : (⟨2, ![100000, 64]⟩ : Shape).Idx → EReal) (wl wr : (⟨2, ![64, 32]⟩ : Shape).Idx → EReal)
    (b : (⟨2, ![1, 32]⟩ : Shape).Idx → EReal) : (⟨2, ![100000, 32]⟩ : Shape).Idx → EReal :=
  fun j => ((∑ k : Fin 64, mean (ix2 (j 0) k) * wl (ix2 k (j 1))) + ∑ k : Fin 64, x (ix2 (j 0) k) * wr (ix2 k (j 1)))
    + b (ix2 (0 : Fin 1) (j 1))

theorem layer1_apply (mean x : (⟨2, ![100000, 32]⟩ : Shape).Idx → EReal) (wl wr : (⟨2, ![32, 64]⟩ : Shape).Idx → EReal)
    (b : (⟨2, ![1, 64]⟩ : Shape).Idx → EReal) (p : Fin 100000) (q : Fin 64) :
    layer1 mean x wl wr b (ix2 p q) = max (((∑ k : Fin 32, mean (ix2 p k) * wl (ix2 k q)) + ∑ k : Fin 32, x (ix2 p k) * wr (ix2 k q))
      + b (ix2 (0 : Fin 1) q)) 0 := rfl

theorem layer2_apply (mean x : (⟨2, ![100000, 64]⟩ : Shape).Idx → EReal) (wl wr : (⟨2, ![64, 32]⟩ : Shape).Idx → EReal)
    (b : (⟨2, ![1, 32]⟩ : Shape).Idx → EReal) (p : Fin 100000) (q : Fin 32) :
    layer2 mean x wl wr b (ix2 p q) = ((∑ k : Fin 64, mean (ix2 p k) * wl (ix2 k q)) + ∑ k : Fin 64, x (ix2 p k) * wr (ix2 k q))
      + b (ix2 (0 : Fin 1) q) := rfl

end Cert.Sage

end
-- ==== Proof.Region0.lean ====
/-
  The first round's output array, as one function of the arrays the region finds.

  The region runs the body at 20 grid points. At point `t` the mean-row window and the own-row window hold rows
  `5000 t … 5000 t + 4999` of their arrays, the two weight windows and the bias window hold their whole arrays, and the
  output window's block is written back to rows `5000 t … 5000 t + 4999` of the result. Entry `(p, q)` of what point
  `t` stores is the first round's formula at node `5000 t + p`; the twenty blocks tile the 100000 rows, so the result
  array ends holding that formula at every node.
-/
import proofs.«132765_j34342558499454_1_alg».proof.Proof.Gen.KernelIdeal.Frame
import proofs.«132765_j34342558499454_1_alg».proof.Proof.Pay
import proofs.«132765_j34342558499454_1_alg».proof.Proof.Spec

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

/- The buffer contents when the region is entered: a parameter, as in the frame it is read off. -/
variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean-row block at point `t` is rows `5000 t …` of the mean array. -/
theorem blk_mean (c : Dev nD) (t : Fin cfg0.N) (p : Fin 5000) (k : Fin 32) (P : Fin 100000) (hP : P.val = 5000 * t.val + p.val) :
    (iblk0 V c 0 t : Vec Ideal S5000x32 .f32) (ix2 p k) = (V c main_v24 : S100000x32.Idx → EReal) (ix2 P k) := by
  obtain ⟨e0, e1, -⟩ := idx_facts t
  unfold iblk0
  show V c main_v24 _ = V c main_v24 _
  congr 1
  funext a; apply Fin.ext
  match a with
  | ⟨0, _⟩ => show win0_0.index t (0 : Fin 2) * 5000 + 1 * p.val = P.val; rw [e0, hP]; omega
  | ⟨1, _⟩ => show win0_0.index t (1 : Fin 2) * 32 + 1 * k.val = k.val; rw [e1]; omega

/-- The own-row block at point `t` is rows `5000 t …` of the node array. -/
theorem blk_own (c : Dev nD) (t : Fin cfg0.N) (p : Fin 5000) (k : Fin 32) (P : Fin 100000) (hP : P.val = 5000 * t.val + p.val) :
    (iblk0 V c 1 t : Vec Ideal S5000x32 .f32) (ix2 p k) = (V c main_arg0 : S100000x32.Idx → EReal) (ix2 P k) := by
  obtain ⟨-, -, e0, e1, -⟩ := idx_facts t
  unfold iblk0
  show V c main_arg0 _ = V c main_arg0 _
  congr 1
  funext a; apply Fin.ext
  match a with
  | ⟨0, _⟩ => show win0_1.index t (0 : Fin 2) * 5000 + 1 * p.val = P.val; rw [e0, hP]; omega
  | ⟨1, _⟩ => show win0_1.index t (1 : Fin 2) * 32 + 1 * k.val = k.val; rw [e1]; omega

/-- The first weight window holds its whole array at every point. -/
theorem blk_wl (c : Dev nD) (t : Fin cfg0.N) (k : Fin 32) (q : Fin 64) :
    (iblk0 V c 2 t : Vec Ideal S32x64 .f32) (ix2 k q) = (V c main_v25 : S32x64.Idx → EReal) (ix2 k q) := by
  obtain ⟨-, -, -, -, e0, e1, -⟩ := idx_facts t
  unfold iblk0
  show V c main_v25 _ = V c main_v25 _
  congr 1
  funext a; apply Fin.ext
  match a with
  | ⟨0, _⟩ => show win0_2.index t (0 : Fin 2) * 32 + 1 * k.val = k.val; rw [e0]; omega
  | ⟨1, _⟩ => show win0_2.index t (1 : Fin 2) * 64 + 1 * q.val = q.val; rw [e1]; omega

/-- The second weight window holds its whole array at every point. -/
theorem blk_wr (c : Dev nD) (t : Fin cfg0.N) (k : Fin 32) (q : Fin 64) :
    (iblk0 V c 3 t : Vec Ideal S32x64 .f32) (ix2 k q) = (V c main_v26 : S32x64.Idx → EReal) (ix2 k q) := by
  obtain ⟨-, -, -, -, -, -, e0, e1, -⟩ := idx_facts t
  unfold iblk0
  show V c main_v26 _ = V c main_v26 _
  congr 1
  funext a; apply Fin.ext
  match a with
  | ⟨0, _⟩ => show win0_3.index t (0 : Fin 2) * 32 + 1 * k.val = k.val; rw [e0]; omega
  | ⟨1, _⟩ => show win0_3.index t (1 : Fin 2) * 64 + 1 * q.val = q.val; rw [e1]; omega

/-- The bias window holds its whole row at every point. -/
theorem blk_bias (c : Dev nD) (t : Fin cfg0.N) (u : Fin 1) (q : Fin 64) :
    (iblk0 V c 4 t : Vec Ideal S1x64 .f32) (ix2 u q) = (V c main_v27 : S1x64.Idx → EReal) (ix2 u q) := by
  obtain ⟨-, -, -, -, -, -, -, -, e0, e1, -⟩ := idx_facts t
  unfold iblk0
  show V c main_v27 _ = V c main_v27 _
  congr 1
  funext a; apply Fin.ext
  match a with
  | ⟨0, _⟩ => show win0_4.index t (0 : Fin 2) * 1 + 1 * u.val = u.val; rw [e0]; omega
  | ⟨1, _⟩ => show win0_4.index t (1 : Fin 2) * 64 + 1 * q.val = q.val; rw [e1]; omega

/-- WHAT POINT `t` WRITES BACK is block `t` of the first round's formula of the arrays the region finds. -/
theorem flushed_eq (c : Dev nD) (t : Fin cfg0.N) :
    (dat0 V c).flushed 5 t = ((cfg0.win 5).blk t).view.read (Elt Ideal)
      (layer1 (V c main_v24) (V c main_arg0) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e50, e51⟩ := idx_facts t
  have ht : t.val < 20 := t.isLt
  have hP : 5000 * t.val + p.val < 100000 := by have := p.isLt; omega
  have hemb : ((View.whole main_v28).slice ((win0 5).rect t)).emb (ix2 p q)
      = (ix2 (⟨5000 * t.val + p.val, hP⟩ : Fin 100000) q : S100000x64.Idx) := by
    funext a; apply Fin.ext
    match a with
    | ⟨0, _⟩ => show win0_5.index t (0 : Fin 2) * 5000 + 1 * p.val = 5000 * t.val + p.val; rw [e50]; omega
    | ⟨1, _⟩ => show win0_5.index t (1 : Fin 2) * 64 + 1 * q.val = q.val; rw [e51]; omega
  show k0_pay1 (F := Ideal) (iblk0 V c 0 t) (iblk0 V c 1 t) (iblk0 V c 2 t) (iblk0 V c 3 t) (iblk0 V c 4 t) (ix2 p q)
    = layer1 (V c main_v24) (V c main_arg0) (V c main_v25) (V c main_v26) (V c main_v27)
        (((View.whole main_v28).slice ((win0 5).rect t)).emb (ix2 p q))
  rw [hemb, layer1_apply]
  refine (Pay.pay0_apply (iblk0 V c 0 t) (iblk0 V c 1 t) (iblk0 V c 2 t) (iblk0 V c 3 t) (iblk0 V c 4 t) p q).trans ?_
  rw [blk_bias V c t 0 q]
  refine congrArg (fun s => max (s + (V c main_v27 : S1x64.Idx → EReal) (ix2 (0 : Fin 1) q)) 0) ?_
  refine congrArg₂ (· + ·) (Finset.sum_congr rfl fun k _ => ?_) (Finset.sum_congr rfl fun k _ => ?_)
  · rw [blk_mean V c t p k ⟨5000 * t.val + p.val, hP⟩ rfl, blk_wl V c t k q]
  · rw [blk_own V c t p k ⟨5000 * t.val + p.val, hP⟩ rfl, blk_wr V c t k q]

/-- THE RESULT ARRAY after the region: the first round's formula of the arrays the region finds. Every node's row
    lies in some point's block — row `r` in block `r / 5000` — so the twenty write-backs cover the array. -/
theorem final (c : Dev nD) : (dat0 V c).arrAt 5 cfg0.N
    = layer1 (V c main_v24) (V c main_arg0) (V c main_v25) (V c main_v26) (V c main_v27) :=
  (dat0 V c).arrAt_eq_of_cover 5 _ (fun t _ => flushed_eq V c t) fun i => by
    have hi0 : (i 0).val < 100000 := (i 0).isLt
    have hi1 : (i 1).val < 64 := (i 1).isLt
    have hN : cfg0.N = 20 := N_0
    have hT : (i 0).val / 5000 < cfg0.N := by rw [hN]; omega
    refine ⟨⟨(i 0).val / 5000, hT⟩, flush0_5 _, ?_⟩
    obtain ⟨-, -, -, -, -, -, -, -, -, -, e50, e51⟩ := idx_facts ⟨(i 0).val / 5000, hT⟩
    show i ∈ ((View.whole main_v28).slice (win0_5.rect ⟨(i 0).val / 5000, hT⟩)).set
    rw [View.set_slice_whole, Rect.mem_set_unit]
    intro a
    match a with
    | ⟨0, _⟩ =>
      show win0_5.index ⟨(i 0).val / 5000, hT⟩ (0 : Fin 2) * 5000 ≤ (i 0).val
        ∧ (i 0).val < win0_5.index ⟨(i 0).val / 5000, hT⟩ (0 : Fin 2) * 5000 + 5000
      rw [e50]; show (i 0).val / 5000 * 5000 ≤ (i 0).val ∧ (i 0).val < (i 0).val / 5000 * 5000 + 5000; omega
    | ⟨1, _⟩ =>
      show win0_5.index ⟨(i 0).val / 5000, hT⟩ (1 : Fin 2) * 64 ≤ (i 1).val
        ∧ (i 1).val < win0_5.index ⟨(i 0).val / 5000, hT⟩ (1 : Fin 2) * 64 + 64
      rw [e51]; omega

end Cert.KernelIdeal.Region0

end
-- ==== Proof.MeanLaw.lean ====
/-
  The mean, spelt two ways, is one array.

  One program forms `1 / max(deg, 1)` per node, reshapes that column of reciprocals to `[N, 1]`, spreads it across
  the feature axis and multiplies the summed rows by it; the other spreads `max(deg, 1)` itself across the feature
  axis and divides the summed rows by it. Read at a node `p` and a feature `q` both are the summed entry against
  node `p`'s count: `a · (1 / max(d, 1))` and `a / max(d, 1)`, equal on the extended reals because the divisor is not zero.
-/
import proofs.«132765_j34342558499454_1_alg».proof.Proof.Spec
import Idealize.ShloMosaic.Lib.Pipeline.Value

noncomputable section

namespace Cert.Sage

open Idealize.ShloMosaic Idealize.ShloMosaic.ValueIdx

variable {N C : Nat}

/-- A scalar spread over a vector reads the scalar everywhere. -/
theorem bcast_scalar_apply (h : (⟨0, ![]⟩ : Shape).BroadcastsInDim ⟨1, ![N]⟩ ![]) (x : (⟨0, ![]⟩ : Shape).Idx → EReal) (p : Fin N) :
    broadcastInDim ⟨1, ![N]⟩ ![] h x (ix1 p) = x ix0 :=
  broadcastInDim_apply _ h x _ _ fun a => a.elim0

/-- A vector made a column reads, at `(p, u)`, the vector at `p`. -/
theorem bcast_unit_apply (h : (⟨1, ![N]⟩ : Shape).BroadcastsInDim ⟨2, ![N, 1]⟩ ![0]) (x : (⟨1, ![N]⟩ : Shape).Idx → EReal)
    (p : Fin N) (u : Fin 1) (hN : N ≠ 1) :
    broadcastInDim ⟨2, ![N, 1]⟩ ![0] h x (ix2 p u) = x (ix1 p) :=
  broadcastInDim_apply _ h x _ _ fun a => by
    match a with
    | ⟨0, _⟩ => show p.val = if N = 1 then 0 else p.val; rw [if_neg hN]

/-- A vector reshaped to a column reads, at `(p, u)`, the vector at `p`. -/
theorem reshape_unit_apply (h : (⟨1, ![N]⟩ : Shape).ShapeCasts ⟨2, ![N, 1]⟩) (x : (⟨1, ![N]⟩ : Shape).Idx → EReal)
    (p : Fin N) (u : Fin 1) :
    shapeCast ⟨2, ![N, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column spread across the feature axis reads, at `(p, q)`, the column at `p`. -/
theorem bcast_col_apply (h : (⟨2, ![N, 1]⟩ : Shape).BroadcastsInDim ⟨2, ![N, C]⟩ ![0, 1]) (x : (⟨2, ![N, 1]⟩ : Shape).Idx → EReal)
    (p : Fin N) (q : Fin C) (hN : N ≠ 1) :
    broadcastInDim ⟨2, ![N, C]⟩ ![0, 1] h x (ix2 p q) = x (ix2 p (0 : Fin 1)) :=
  broadcastInDim_apply _ h x _ _ fun a => by
    match a with
    | ⟨0, _⟩ => show p.val = if N = 1 then 0 else p.val; rw [if_neg hN]
    | ⟨1, _⟩ => show (0 : Nat) = if (1 : Nat) = 1 then 0 else q.val; rw [if_pos rfl]

/-- THE MEAN: the summed rows times the reshaped, spread reciprocal of `max(deg, 1)` are the summed rows over the
    spread `max(deg, 1)`. -/
theorem mean_eq (hN : N ≠ 1)
    (h0 : (⟨0, ![]⟩ : Shape).BroadcastsInDim ⟨1, ![N]⟩ ![])
    (hr : (⟨1, ![N]⟩ : Shape).ShapeCasts ⟨2, ![N, 1]⟩)
    (hu : (⟨1, ![N]⟩ : Shape).BroadcastsInDim ⟨2, ![N, 1]⟩ ![0])
    (hc : (⟨2, ![N, 1]⟩ : Shape).BroadcastsInDim ⟨2, ![N, C]⟩ ![0, 1])
    (agg : FVec Ideal ⟨2, ![N, C]⟩ .f32) (deg : FVec Ideal ⟨1, ![N]⟩ .f32) :
    mulf agg (broadcastInDim ⟨2, ![N, C]⟩ ![0, 1] hc (shapeCast ⟨2, ![N, 1]⟩
        (Host.divf (broadcastInDim ⟨1, ![N]⟩ ![] h0 (constant ⟨0, ![]⟩ .f32 0x3F800000#32))
          (maximumf deg (broadcastInDim ⟨1, ![N]⟩ ![] h0 (constant ⟨0, ![]⟩ .f32 0x3F800000#32)))) hr))
    = Host.divf agg (broadcastInDim ⟨2, ![N, C]⟩ ![0, 1] hc (broadcastInDim ⟨2, ![N, 1]⟩ ![0] hu
        (maximumf deg (broadcastInDim ⟨1, ![N]⟩ ![] h0 (constant ⟨0, ![]⟩ .f32 0x3F800000#32))))) := by
  funext j
  obtain ⟨p, q, rfl⟩ : ∃ (p : Fin N) (q : Fin C), j = ix2 p q := ⟨j 0, j 1, eq_ix2 j⟩
  show agg (ix2 p q) * _ = Ideal.div (agg (ix2 p q)) _
  rw [bcast_col_apply hc _ p q hN, bcast_col_apply hc _ p q hN, reshape_unit_apply hr _ p 0, bcast_unit_apply hu _ p 0 hN]
  have hones : broadcastInDim ⟨1, ![N]⟩ ![] h0 (constant (F := Ideal) ⟨0, ![]⟩ .f32 0x3F800000#32) (ix1 p) = (1 : EReal) :=
    (bcast_scalar_apply h0 _ p).trans ofBits_one
  show agg (ix2 p q) * Ideal.div (broadcastInDim ⟨1, ![N]⟩ ![] h0 (constant (F := Ideal) ⟨0, ![]⟩ .f32 0x3F800000#32) (ix1 p))
      (max (deg (ix1 p)) (broadcastInDim ⟨1, ![N]⟩ ![] h0 (constant (F := Ideal) ⟨0, ![]⟩ .f32 0x3F800000#32) (ix1 p)))
    = Ideal.div (agg (ix2 p q)) (max (deg (ix1 p)) (broadcastInDim ⟨1, ![N]⟩ ![] h0 (constant (F := Ideal) ⟨0, ![]⟩ .f32 0x3F800000#32) (ix1 p)))
  rw [hones]
  exact mean_entry _ _

end Cert.Sage

end
-- ==== Proof.LayerRef.lean ====
/-
  The affine combine as the plain-array program spells it, read at an entry.

  That program forms `mean · Wl` and `x · Wr` as two whole-array matrix products, adds them, adds the bias vector made
  a row and spread down the rows, and in the first round takes the maximum with a spread zero. At entry `(p, q)` each
  product is the sum over the feature index of the products of entries, the spread bias is the bias at `q`, and the
  spread zero is zero: the same formula the tiled kernel computes block by block, with the bias vector read through
  a reshape to one row instead of a broadcast to one row.
-/
import proofs.«132765_j34342558499454_1_alg».proof.Proof.LibDot
import proofs.«132765_j34342558499454_1_alg».proof.Proof.Spec
import Idealize.ShloMosaic.Lib.ValueLayout
import Idealize.ShloMosaic.Lib.Pipeline.Value

noncomputable section

open scoped BigOperators

namespace Cert.Sage

open Idealize.ShloMosaic Idealize.ShloMosaic.ValueIdx

variable {N K M : Nat}

/-- A scalar spread over an array of any shape reads the scalar everywhere. -/
theorem bcast_scalar_any (t : Shape) (h : (⟨0, ![]⟩ : Shape).BroadcastsInDim t ![]) (x : (⟨0, ![]⟩ : Shape).Idx → EReal) (j : t.Idx) :
    broadcastInDim t ![] h x j = x ix0 :=
  broadcastInDim_apply _ h x _ _ fun a => a.elim0

/-- A vector made a row reads, at `(u, q)`, the vector at `q`. -/
theorem bcast_rowvec_apply (h : (⟨1, ![M]⟩ : Shape).BroadcastsInDim ⟨2, ![1, M]⟩ ![1]) (x : (⟨1, ![M]⟩ : Shape).Idx → EReal)
    (u : Fin 1) (q : Fin M) (hM : M ≠ 1) :
    broadcastInDim ⟨2, ![1, M]⟩ ![1] h x (ix2 u q) = x (ix1 q) :=
  broadcastInDim_apply _ h x _ _ fun a => by
    match a with
    | ⟨0, _⟩ => show q.val = if M = 1 then 0 else q.val; rw [if_neg hM]

/-- A row spread down the rows reads, at `(p, q)`, the row at `q`. -/
theorem bcast_rows_apply (h : (⟨2, ![1, M]⟩ : Shape).BroadcastsInDim ⟨2, ![N, M]⟩ ![0, 1]) (x : (⟨2, ![1, M]⟩ : Shape).Idx → EReal)
    (p : Fin N) (q : Fin M) (hM : M ≠ 1) :
    broadcastInDim ⟨2, ![N, M]⟩ ![0, 1] h x (ix2 p q) = x (ix2 (0 : Fin 1) q) :=
  broadcastInDim_apply _ h x _ _ fun a => by
    match a with
    | ⟨0, _⟩ => show (0 : Nat) = if (1 : Nat) = 1 then 0 else p.val; rw [if_pos rfl]
    | ⟨1, _⟩ => show q.val = if M = 1 then 0 else q.val; rw [if_neg hM]

/-- The two whole-array products added, plus the spread bias, at an entry. -/
theorem affine_entry_ref (hM : M ≠ 1) (D : DotDims ⟨2, ![N, K]⟩ ⟨2, ![K, M]⟩ ⟨2, ![N, M]⟩)
    (hlc : D.lhsContracting = [1]) (hrc : D.rhsContracting = [0]) (hlb : D.lhsBatch = [])
    (hln : D.lhsNonContracting = [0]) (hrb : D.rhsBatch = []) (hrn : D.rhsNonContracting = [1])
    (h1 : (⟨2, ![1, M]⟩ : Shape).BroadcastsInDim ⟨2, ![N, M]⟩ ![0, 1])
    (h2 : (⟨1, ![M]⟩ : Shape).BroadcastsInDim ⟨2, ![1, M]⟩ ![1])
    (hsc : (⟨1, ![M]⟩ : Shape).ShapeCasts ⟨2, ![1, M]⟩)
    (mean x : FVec Ideal ⟨2, ![N, K]⟩ .f32) (wl wr : FVec Ideal ⟨2, ![K, M]⟩ .f32) (b : FVec Ideal ⟨1, ![M]⟩ .f32)
    (p : Fin N) (q : Fin M) :
    addf (addf (Host.dotGeneral D none mean wl) (Host.dotGeneral D none x wr))
        (broadcastInDim ⟨2, ![N, M]⟩ ![0, 1] h1 (broadcastInDim ⟨2, ![1, M]⟩ ![1] h2 b)) (ix2 p q)
      = ((∑ k : Fin K, mean (ix2 p k) * wl (ix2 k q)) + ∑ k : Fin K, x (ix2 p k) * wr (ix2 k q))
          + shapeCast ⟨2, ![1, M]⟩ b hsc (ix2 (0 : Fin 1) q) := by
  show (Host.dotGeneral D none mean wl (ix2 p q) + Host.dotGeneral D none x wr (ix2 p q))
      + broadcastInDim ⟨2, ![N, M]⟩ ![0, 1] h1 (broadcastInDim ⟨2, ![1, M]⟩ ![1] h2 b) (ix2 p q) = _
  rw [Cert.LibDot.dotGeneral_apply D hlc hrc hlb hln hrb hrn none mean wl p q,
    Cert.LibDot.dotGeneral_apply D hlc hrc hlb hln hrb hrn none x wr p q,
    bcast_rows_apply h1 _ p q hM, bcast_rowvec_apply h2 _ 0 q hM, shapeCast_a_1a_apply b hsc 0 q]

/-- FIRST ROUND, as the plain-array program spells it, is the first round's formula. -/
theorem layer1_ref (D : DotDims ⟨2, ![100000, 32]⟩ ⟨2, ![32, 64]⟩ ⟨2, ![100000, 64]⟩)
    (hlc : D.lhsContracting = [1]) (hrc : D.rhsContracting = [0]) (hlb : D.lhsBatch = [])
    (hln : D.lhsNonContracting = [0]) (hrb : D.rhsBatch = []) (hrn : D.rhsNonContracting = [1])
    (h1 : (⟨2, ![1, 64]⟩ : Shape).BroadcastsInDim ⟨2, ![100000, 64]⟩ ![0, 1])
    (h2 : (⟨1, ![64]⟩ : Shape).BroadcastsInDim ⟨2, ![1, 64]⟩ ![1])
    (h3 : (⟨0, ![]⟩ : Shape).BroadcastsInDim ⟨2, ![100000, 64]⟩ ![])
    (hsc : (⟨1, ![64]⟩ : Shape).ShapeCasts ⟨2, ![1, 64]⟩)
    (mean x : FVec Ideal ⟨2, ![100000, 32]⟩ .f32) (wl wr : FVec Ideal ⟨2, ![32, 64]⟩ .f32) (b : FVec Ideal ⟨1, ![64]⟩ .f32) :
    maximumf (addf (addf (Host.dotGeneral D none mean wl) (Host.dotGeneral D none x wr))
        (broadcastInDim ⟨2, ![100000, 64]⟩ ![0, 1] h1 (broadcastInDim ⟨2, ![1, 64]⟩ ![1] h2 b)))
      (broadcastInDim ⟨2, ![100000, 64]⟩ ![] h3 (constant ⟨0, ![]⟩ .f32 0x00000000#32))
    = layer1 mean x wl wr (shapeCast ⟨2, ![1, 64]⟩ b hsc) := by
  funext j
  obtain ⟨p, q, rfl⟩ : ∃ (p : Fin 100000) (q : Fin 64), j = ix2 p q := ⟨j 0, j 1, eq_ix2 j⟩
  rw [layer1_apply]
  show max (addf (addf (Host.dotGeneral D none mean wl) (Host.dotGeneral D none x wr))
        (broadcastInDim ⟨2, ![100000, 64]⟩ ![0, 1] h1 (broadcastInDim ⟨2, ![1, 64]⟩ ![1] h2 b)) (ix2 p q))
      (broadcastInDim ⟨2, ![100000, 64]⟩ ![] h3 (constant (F := Ideal) ⟨0, ![]⟩ .f32 0x00000000#32) (ix2 p q)) = _
  rw [affine_entry_ref (by decide) D hlc hrc hlb hln hrb hrn h1 h2 hsc mean x wl wr b p q, bcast_scalar_any _ h3 _ _]
  show max _ (Ideal.ofBits .f32 0x00000000#32) = _
  rw [Ideal.ofBits_zero_f32]

/-- SECOND ROUND, as the plain-array program spells it, is the second round's formula. -/
theorem layer2_ref (D : DotDims ⟨2, ![100000, 64]⟩ ⟨2, ![64, 32]⟩ ⟨2, ![100000, 32]⟩)
    (hlc : D.lhsContracting = [1]) (hrc : D.rhsContracting = [0]) (hlb : D.lhsBatch = [])
    (hln : D.lhsNonContracting = [0]) (hrb : D.rhsBatch = []) (hrn : D.rhsNonContracting = [1])
    (h1 : (⟨2, ![1, 32]⟩ : Shape).BroadcastsInDim ⟨2, ![100000, 32]⟩ ![0, 1])
    (h2 : (⟨1, ![32]⟩ : Shape).BroadcastsInDim ⟨2, ![1, 32]⟩ ![1])
    (hsc : (⟨1, ![32]⟩ : Shape).ShapeCasts ⟨2, ![1, 32]⟩)
    (mean x : FVec Ideal ⟨2, ![100000, 64]⟩ .f32) (wl wr : FVec Ideal ⟨2, ![64, 32]⟩ .f32) (b : FVec Ideal ⟨1, ![32]⟩ .f32) :
    addf (addf (Host.dotGeneral D none mean wl) (Host.dotGeneral D none x wr))
        (broadcastInDim ⟨2, ![100000, 32]⟩ ![0, 1] h1 (broadcastInDim ⟨2, ![1, 32]⟩ ![1] h2 b))
    = layer2 mean x wl wr (shapeCast ⟨2, ![1, 32]⟩ b hsc) := by
  funext j
  obtain ⟨p, q, rfl⟩ : ∃ (p : Fin 100000) (q : Fin 32), j = ix2 p q := ⟨j 0, j 1, eq_ix2 j⟩
  rw [layer2_apply]
  exact affine_entry_ref (by decide) D hlc hrc hlb hln hrb hrn h1 h2 hsc mean x wl wr b p q

end Cert.Sage

end
-- ==== Proof.KernelValue.lean ====
/-
  The kernel program's result array, read back through its two host stretches and two kernel regions, is the
  plain-array program's composed term of the same arguments.

  The program's buffers at its five boundaries are a fold through @main (the generated frame's `W0 … W4`): the launch
  contents; after the first host stretch; after the first region (its result array at what the twenty write-backs
  leave, every other buffer as before); after the second host stretch; after the second region. Read backwards:
  the result is the second round's formula of the second mean, the first round's output, the two transposed weights
  and the reshaped bias; the second mean is the gathered-and-summed first-round output times the spread reciprocal
  count, which is the quotient by the spread count (the mean law); the first round's output is the first round's
  formula of the first mean, the node rows, the transposed weights and the reshaped bias; and the first mean is again
  a product with the reciprocal count, hence the quotient. Each of these is, stage by stage, what the plain-array
  program computes: its edge-index preparation, gathers and scatter-additions are the same operations on the same
  operands, and its two rounds are the same formula spelt with whole-array products.
-/
import proofs.«132765_j34342558499454_1_alg».proof.Proof.KernelIdealRun
import proofs.«132765_j34342558499454_1_alg».proof.Proof.Gen.ReferenceIdeal.Read
import proofs.«132765_j34342558499454_1_alg».proof.Proof.Region0
import proofs.«132765_j34342558499454_1_alg».proof.Proof.Region1
import proofs.«132765_j34342558499454_1_alg».proof.Proof.MeanLaw
import proofs.«132765_j34342558499454_1_alg».proof.Proof.LayerRef
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal Cert.KernelIdeal.Gen Cert.Sage
open Cert.ReferenceIdeal.Read (val_main_v1 val_main_v3 val_main_v22 val_main_v23 val_main_v25 val_main_v31 val_main_v45 val_main_v50
  val_main_v51 val_main_v53 val_main_v58)

variable (m : (ℓ : Loc nD τ sig) → Buf (Elt Ideal) ℓ) (ρ : Dev nD → PrngReg)

/-! ## After the first host stretch -/

/-- The first mean: the summed gathered rows times the spread reciprocal count are the plain-array program's quotient. -/
theorem V1_mean (c : Dev nD) :
    V1 m ρ c main_v24 = val_main_v22 (F := Ideal) (m ((c : Thread nD τ).loc main_arg0)) (m ((c : Thread nD τ).loc main_arg7)) := by
  show StableHlo.after hostOps0 (W0 m ρ c) (Proc.devRef .tc main_v24) = _
  after_results_simp
  refine (mean_eq (N := 100000) (C := 32) (by decide) _ _ Cert.ReferenceIdeal.Facts₀.bcast_S100000_S100000x1_0 _ _ _).trans ?_
  rfl

/-- No host operation writes an argument. -/
theorem V1_own (c : Dev nD) : V1 m ρ c main_arg0 = (m ((c : Thread nD τ).loc main_arg0)) := by
  show StableHlo.after hostOps0 (W0 m ρ c) (Proc.devRef .tc main_arg0) = _
  after_results_simp <;> rfl

theorem V1_wl (c : Dev nD) : V1 m ρ c main_v25 = val_main_v23 (F := Ideal) (m ((c : Thread nD τ).loc main_arg1)) := by
  show StableHlo.after hostOps0 (W0 m ρ c) (Proc.devRef .tc main_v25) = _
  after_results_simp <;> rfl

theorem V1_wr (c : Dev nD) : V1 m ρ c main_v26 = val_main_v25 (F := Ideal) (m ((c : Thread nD τ).loc main_arg2)) := by
  show StableHlo.after hostOps0 (W0 m ρ c) (Proc.devRef .tc main_v26) = _
  after_results_simp <;> rfl

theorem V1_bias (c : Dev nD) :
    V1 m ρ c main_v27 = shapeCast S1x64 (m ((c : Thread nD τ).loc main_arg3)) Facts₀.shapeCasts_S64_S1x64 := by
  show StableHlo.after hostOps0 (W0 m ρ c) (Proc.devRef .tc main_v27) = _
  after_results_simp <;> rfl

/-! ## After the first region -/

/-- THE FIRST ROUND'S OUTPUT is the plain-array program's first round. -/
theorem W2_h (c : Dev nD) :
    W2 m ρ c (Proc.devRef .tc main_v28) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  rw [show W2 m ρ c (Proc.devRef .tc main_v28) = (dat0 (V1 m ρ) c).arrAt 5 cfg0.N from W2_arr m ρ c 5]
  rw [Region0.final (V1 m ρ) c, V1_mean, V1_own, V1_wl, V1_wr, V1_bias]
  exact (layer1_ref Cert.ReferenceIdeal.dot_S100000x32_S32x64_S100000x64_1_0_0_1_n_n rfl rfl rfl rfl rfl rfl
    Cert.ReferenceIdeal.Facts₀.bcast_S1x64_S100000x64_0_1 Cert.ReferenceIdeal.Facts₀.bcast_S64_S1x64_1
    Cert.ReferenceIdeal.Facts₀.bcast_S_S100000x64 Facts₀.shapeCasts_S64_S1x64 _ _ _ _ _).symm

/-- What the first stretch computed and the first region left alone: the source indices, -/
theorem W2_src (c : Dev nD) : W2 m ρ c (Proc.devRef .tc main_v1) = val_main_v1 (F := Ideal) (m ((c : Thread nD τ).loc main_arg7)) :=
  (W2_of_ne m ρ c main_v1 (by decide)).trans (by
    show StableHlo.after hostOps0 (W0 m ρ c) (Proc.devRef .tc main_v1) = _
    after_results_simp <;> rfl)

/-- the destination indices, -/
theorem W2_dst (c : Dev nD) : W2 m ρ c (Proc.devRef .tc main_v3) = val_main_v3 (F := Ideal) (m ((c : Thread nD τ).loc main_arg7)) :=
  (W2_of_ne m ρ c main_v3 (by decide)).trans (by
    show StableHlo.after hostOps0 (W0 m ρ c) (Proc.devRef .tc main_v3) = _
    after_results_simp <;> rfl)

/-- and the column of reciprocal counts, over the count the plain-array program forms for its second round. -/
theorem W2_inv (c : Dev nD) : W2 m ρ c (Proc.devRef .tc main_v12)
    = shapeCast S100000x1 (Host.divf (broadcastInDim S100000 ![] Facts₀.bcast_S_S100000 (constant (F := Ideal) S_ .f32 0x3F800000#32))
        (maximumf (val_main_v45 (F := Ideal) (m ((c : Thread nD τ).loc main_arg7)))
          (broadcastInDim S100000 ![] Facts₀.bcast_S_S100000 (constant (F := Ideal) S_ .f32 0x3F800000#32)))) Facts₀.shapeCasts_S100000_S100000x1 :=
  (W2_of_ne m ρ c main_v12 (by decide)).trans (by
    show StableHlo.after hostOps0 (W0 m ρ c) (Proc.devRef .tc main_v12) = _
    after_results_simp <;> rfl)

theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-! ## After the second host stretch -/

/-- The second mean: the summed gathered first-round rows times the spread reciprocal count are the quotient. -/
theorem V3_mean (c : Dev nD) :
    V3 m ρ c main_v40 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps1 (W2 m ρ c) (Proc.devRef .tc main_v40) = _
  after_results_simp
  rw [W2_h, W2_src, W2_dst, W2_inv]
  refine (mean_eq (N := 100000) (C := 64) (by decide) _ _ Cert.ReferenceIdeal.Facts₀.bcast_S100000_S100000x1_0 _ _ _).trans ?_
  rfl

theorem V3_own (c : Dev nD) :
    V3 m ρ c main_v28 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps1 (W2 m ρ c) (Proc.devRef .tc main_v28) = _
  after_results_simp
  exact W2_h m ρ c

theorem V3_wl (c : Dev nD) : V3 m ρ c main_v41 = val_main_v51 (F := Ideal) (m ((c : Thread nD τ).loc main_arg4)) := by
  show StableHlo.after hostOps1 (W2 m ρ c) (Proc.devRef .tc main_v41) = _
  after_results_simp
  rw [W2_arg4]; rfl

theorem V3_wr (c : Dev nD) : V3 m ρ c main_v42 = val_main_v53 (F := Ideal) (m ((c : Thread nD τ).loc main_arg5)) := by
  show StableHlo.after hostOps1 (W2 m ρ c) (Proc.devRef .tc main_v42) = _
  after_results_simp
  rw [W2_arg5]; rfl

theorem V3_bias (c : Dev nD) :
    V3 m ρ c main_v43 = shapeCast S1x32 (m ((c : Thread nD τ).loc main_arg6)) Facts₀.shapeCasts_S32_S1x32 := by
  show StableHlo.after hostOps1 (W2 m ρ c) (Proc.devRef .tc main_v43) = _
  after_results_simp
  rw [W2_arg6]; rfl

/-! ## After the second region -/

/-- THE RESULT ARRAY is the plain-array program's result term of the same arguments. -/
theorem result_eq (c : Dev nD) :
    W4 m ρ c (Proc.devRef .tc main_v44)
      = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v44) = (dat1 (V3 m ρ) c).arrAt 5 cfg1.N from W4_arr m ρ c 5]
  rw [Region1.final (V3 m ρ) c, V3_mean, V3_own, V3_wl, V3_wr, V3_bias]
  exact (layer2_ref Cert.ReferenceIdeal.dot_S100000x64_S64x32_S100000x32_1_0_0_1_n_n rfl rfl rfl rfl rfl rfl
    Cert.ReferenceIdeal.Facts₀.bcast_S1x32_S100000x32_0_1 Cert.ReferenceIdeal.Facts₀.bcast_S32_S1x32_1
    Facts₀.shapeCasts_S32_S1x32 _ _ _ _ _).symm

end Cert.KernelIdeal.KVal

end
-- ==== Proof.lean ====
/-
  Two rounds of mean aggregation over a graph (GraphSAGE): the tiled kernel program against the plain-array program.

  Both programs take 100000 node rows, 1600000 directed edges and two rounds' weights and biases. In each round they
  gather the source row of every edge, add it into the destination node's row, count the edges entering each node, and
  form the mean; then a node's new row is `mean · Wlᵀ + x · Wrᵀ + b`, with a maximum with zero after the first round.

  The kernel program computes the combine in a tiled kernel (blocks of 5000 nodes, the matrix products on bf16 operands
  with single-precision accumulation) and forms the mean as a product with `1 / max(deg, 1)`; the plain-array program
  forms it as a quotient by `max(deg, 1)` and the combine as whole-array products. Over the extended reals the narrowing
  to bf16 changes nothing, a tiled product into a zero accumulator is the whole-array product entry by entry, and a
  product with the reciprocal of a nonzero divisor IS the quotient — `max(deg, 1) ≥ 1` whatever the counts are — so
  the two results are equal element by element, with no use of the inputs' finiteness.

  The kernel program's frames are the generated ones; its run with the result array named calls the same launch once
  more (Proof/KernelIdealRun.lean); each region's output array as one function of its input arrays is
  Proof/Region0.lean and Proof/Region1.lean over the stored block at an entry (Proof/Pay.lean); the mean law is
  Proof/MeanLaw.lean; the plain-array program's rounds as the same formula are Proof/LayerRef.lean; and the result
  array read back through the program, stage by stage onto the plain-array program's own stages, is
  Proof/KernelValue.lean.
-/
import proofs.«132765_j34342558499454_1_alg».proof.Defs
import proofs.«132765_j34342558499454_1_alg».proof.Proof.Gen.Kernel
import proofs.«132765_j34342558499454_1_alg».proof.Proof.Gen.Kernel.Skeleton
import proofs.«132765_j34342558499454_1_alg».proof.Proof.Gen.Kernel.Launch
import proofs.«132765_j34342558499454_1_alg».proof.Proof.Gen.Kernel.Points
import proofs.«132765_j34342558499454_1_alg».proof.Proof.Gen.Kernel.Frame
import proofs.«132765_j34342558499454_1_alg».proof.Proof.Gen.KernelIdeal
import proofs.«132765_j34342558499454_1_alg».proof.Proof.Gen.KernelIdeal.Skeleton
import proofs.«132765_j34342558499454_1_alg».proof.Proof.Gen.KernelIdeal.Launch
import proofs.«132765_j34342558499454_1_alg».proof.Proof.Gen.KernelIdeal.Points
import proofs.«132765_j34342558499454_1_alg».proof.Proof.Gen.KernelIdeal.Frame
import proofs.«132765_j34342558499454_1_alg».proof.Proof.Gen.ReferenceIdeal
import proofs.«132765_j34342558499454_1_alg».proof.Proof.Gen.Pre_finite_inputs
import proofs.«132765_j34342558499454_1_alg».proof.Proof.Gen.ReferenceIdeal.Run
import proofs.«132765_j34342558499454_1_alg».proof.Proof.Gen.ReferenceIdeal.Read
import proofs.«132765_j34342558499454_1_alg».proof.Proof.KernelIdealRun
import proofs.«132765_j34342558499454_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The plain-array program runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the plain-array
    program's result term of the arguments (the kernel program's by Proof/KernelValue.lean). -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KVal.result_eq m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
